-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelHost.lean ====
/- What the two calls find in their arrays: the host operations before and between them, read back.

   Before the first call the host gathers each edge's source row of the node features, adds it into the edge's
   destination row, and multiplies each row by the reciprocal of its neighbour count raised to at least one: the
   mean-aggregated features. Between the calls it does the same to the first call's result, with the same edge
   vectors and the same reciprocal counts, computed once. The weights are the arguments; the bias rows are the bias
   arguments reshaped to one row. Neither the gather nor the scatter-add is opened: the same two operations on the same
   index arrays stand in the reference, so they are carried as they are. -/
import proofs.«166846_j42391327211901_1_alg».proof.Proof.Gen.KernelIdeal.Frame
import Idealize.ShloMosaic.Lib.StableHlo.Run
import Idealize.ShloMosaic.PureOps.Ideal

set_option maxRecDepth 16384

noncomputable section

namespace Cert.KernelIdeal.Stage

open Idealize.ShloMosaic Idealize.ShloMosaic.TcCoe Idealize.SL.Sem Idealize.ShloMosaic.StableHlo
open Cert.KernelIdeal Cert.KernelIdeal.Gen

variable [Cert.KernelIdeal.Facts]

/-- Row 0 of the edge array as a vector: each edge's source node. -/
def srcRow (e : IVec S2x1600000 32) : IVec S1600000 32 :=
  shapeCast _ (extractStridedSlice S1x1600000 ![0, 0] e slices_S2x1600000_S1x1600000_0_0) shapeCasts_S1x1600000_S1600000

/-- Row 1 of the edge array as a vector: each edge's destination node. -/
def dstRow (e : IVec S2x1600000 32) : IVec S1600000 32 :=
  shapeCast _ (extractStridedSlice S1x1600000 ![1, 0] e slices_S2x1600000_S1x1600000_1_0) shapeCasts_S1x1600000_S1600000

/-- The reciprocal of each node's number of incoming edges raised to at least one. -/
def cntInv (e : IVec S2x1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstRow e))
        (broadcastInDim S1600000 ![] bcast_S_S1600000 (constant S_ .f32 0x3F800000#32)))
      (broadcastInDim S100000 ![] bcast_S_S100000 (constant S_ .f32 0x3F800000#32)))

/-- The sum over each node's incoming edges of the source rows of `feat` (a negative source index counted from the
    end), each row then multiplied by that node's entry of `cinv`. -/
def meanWith (feat : FVec Ideal S100000x128 .f32) (src dst : IVec S1600000 32) (cinv : FVec Ideal S100000 .f32) :
    FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 cinv))

/-- The mean over each node's incoming edges as the kernel's program takes it: the sum times the count's reciprocal. -/
def meanK (feat : FVec Ideal S100000x128 .f32) (e : IVec S2x1600000 32) : FVec Ideal S100000x128 .f32 :=
  meanWith feat (srcRow e) (dstRow e) (cntInv e)

variable (m : (ℓ : Loc nD τ sig) → Buf (Elt Ideal) ℓ) (ρ : Dev nD → PrngReg)

/-! ## Before the first call -/

/-- The aggregated features the first call reads: the mean of the node features. -/
theorem V1_agg (c : Dev nD) :
    (V1 m ρ c main_v24 : FVec Ideal S100000x128 .f32)
      = meanK (m ((c : Thread nD τ).loc main_arg0)) (m ((c : Thread nD τ).loc main_arg1)) := by
  show StableHlo.after hostOps0 (W0 m ρ c) (Proc.devRef .tc main_v24) = _
  after_results_simp
  rfl

theorem V1_feat (c : Dev nD) : V1 m ρ c main_arg0 = m ((c : Thread nD τ).loc main_arg0) := by
  show StableHlo.after hostOps0 (W0 m ρ c) (Proc.devRef .tc main_arg0) = _
  after_results_simp

theorem V1_wl (c : Dev nD) : V1 m ρ c main_arg2 = m ((c : Thread nD τ).loc main_arg2) := by
  show StableHlo.after hostOps0 (W0 m ρ c) (Proc.devRef .tc main_arg2) = _
  after_results_simp

theorem V1_wr (c : Dev nD) : V1 m ρ c main_arg4 = m ((c : Thread nD τ).loc main_arg4) := by
  show StableHlo.after hostOps0 (W0 m ρ c) (Proc.devRef .tc main_arg4) = _
  after_results_simp

/-- The first bias as the one-row array the call is handed. -/
theorem V1_bias (c : Dev nD) :
    (V1 m ρ c main_v25 : FVec Ideal S1x128 .f32) = shapeCast S1x128 (m ((c : Thread nD τ).loc main_arg3)) shapeCasts_S128_S1x128 := by
  show StableHlo.after hostOps0 (W0 m ρ c) (Proc.devRef .tc main_v25) = _
  after_results_simp
  rfl

/-- The edge vectors and the reciprocal counts, computed before the first call and read again after it. -/
theorem V1_src (c : Dev nD) : (V1 m ρ c main_v1 : IVec S1600000 32) = srcRow (m ((c : Thread nD τ).loc main_arg1)) := by
  show StableHlo.after hostOps0 (W0 m ρ c) (Proc.devRef .tc main_v1) = _
  after_results_simp
  rfl

theorem V1_dst (c : Dev nD) : (V1 m ρ c main_v3 : IVec S1600000 32) = dstRow (m ((c : Thread nD τ).loc main_arg1)) := by
  show StableHlo.after hostOps0 (W0 m ρ c) (Proc.devRef .tc main_v3) = _
  after_results_simp
  rfl

theorem V1_cinv (c : Dev nD) : (V1 m ρ c main_v11 : FVec Ideal S100000 .f32) = cntInv (m ((c : Thread nD τ).loc main_arg1)) := by
  show StableHlo.after hostOps0 (W0 m ρ c) (Proc.devRef .tc main_v11) = _
  after_results_simp
  rfl

theorem V1_w2l (c : Dev nD) : V1 m ρ c main_arg5 = m ((c : Thread nD τ).loc main_arg5) := by
  show StableHlo.after hostOps0 (W0 m ρ c) (Proc.devRef .tc main_arg5) = _
  after_results_simp

theorem V1_w2r (c : Dev nD) : V1 m ρ c main_arg7 = m ((c : Thread nD τ).loc main_arg7) := by
  show StableHlo.after hostOps0 (W0 m ρ c) (Proc.devRef .tc main_arg7) = _
  after_results_simp

theorem V1_b2 (c : Dev nD) : V1 m ρ c main_arg6 = m ((c : Thread nD τ).loc main_arg6) := by
  show StableHlo.after hostOps0 (W0 m ρ c) (Proc.devRef .tc main_arg6) = _
  after_results_simp

/-! ## Between the calls: the first call changes its result array only -/

/-- The aggregated features the second call reads: the mean, over the same edges with the same reciprocal counts, of
    what the first call left in its result array. -/
theorem V3_agg (c : Dev nD) :
    (V3 m ρ c main_v39 : FVec Ideal S100000x128 .f32)
      = meanK ((dat0 (V1 m ρ) c).arrAt 5 cfg0.N) (m ((c : Thread nD τ).loc main_arg1)) := by
  show StableHlo.after hostOps1 (W2 m ρ c) (Proc.devRef .tc main_v39) = _
  after_results_simp
  rw [W2_of_ne m ρ c main_v1 (by decide), W2_of_ne m ρ c main_v3 (by decide), W2_of_ne m ρ c main_v11 (by decide),
    W2_arr m ρ c 5]
  show meanWith _ (V1 m ρ c main_v1) (V1 m ρ c main_v3) (V1 m ρ c main_v11) = _
  rw [V1_src, V1_dst, V1_cinv]
  rfl

/-- The node features the second call reads: the first call's result array. -/
theorem V3_feat (c : Dev nD) : V3 m ρ c main_v26 = (dat0 (V1 m ρ) c).arrAt 5 cfg0.N := by
  show StableHlo.after hostOps1 (W2 m ρ c) (Proc.devRef .tc main_v26) = _
  after_results_simp
  exact W2_arr m ρ c 5

theorem V3_wl (c : Dev nD) : V3 m ρ c main_arg5 = m ((c : Thread nD τ).loc main_arg5) := by
  show StableHlo.after hostOps1 (W2 m ρ c) (Proc.devRef .tc main_arg5) = _
  after_results_simp
  exact (W2_of_ne m ρ c main_arg5 (by decide)).trans (V1_w2l m ρ c)

theorem V3_wr (c : Dev nD) : V3 m ρ c main_arg7 = m ((c : Thread nD τ).loc main_arg7) := by
  show StableHlo.after hostOps1 (W2 m ρ c) (Proc.devRef .tc main_arg7) = _
  after_results_simp
  exact (W2_of_ne m ρ c main_arg7 (by decide)).trans (V1_w2r m ρ c)

/-- The second bias as the one-row array the call is handed. -/
theorem V3_bias (c : Dev nD) :
    (V3 m ρ c main_v40 : FVec Ideal S1x64 .f32) = shapeCast S1x64 (m ((c : Thread nD τ).loc main_arg6)) shapeCasts_S64_S1x64 := by
  show StableHlo.after hostOps1 (W2 m ρ c) (Proc.devRef .tc main_v40) = _
  after_results_simp
  rw [W2_of_ne m ρ c main_arg6 (by decide)]
  show shapeCast _ (V1 m ρ c main_arg6) _ = _
  rw [V1_b2]
  rfl

end Cert.KernelIdeal.Stage

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.StagePayload.lean ====
/- The two kernel bodies' stored values, read at one index, on the extended reals.

   Each body loads a block of 2000 rows of the aggregated features and of the node features, the two weight
   matrices whole and the bias row, and stores
     rows · Wl + rows' · Wr + bias            (second stage)
     max (rows · Wl + rows' · Wr + bias) 0    (first stage),
   the narrowing to bf16 before each product being the identity on the extended reals. Read at row p and column q
   of the block this is the two contraction sums over the 128 feature columns plus the bias at column q. -/
import proofs.«166846_j42391327211901_1_alg».proof.Proof.Gen.KernelIdeal.Skeleton
import proofs.«166846_j42391327211901_1_alg».proof.Proof.LibDotPlain
import Idealize.ShloMosaic.Lib.Pipeline.Value
import Idealize.ShloMosaic.Lib.ValueIdx
import Idealize.ShloMosaic.PureOps.Ideal.Laws

noncomputable section

namespace Cert.KernelIdeal.Stage

open Idealize.ShloMosaic Idealize.ShloMosaic.ValueIdx Idealize.ShloMosaic.Pipeline Cert.KernelIdeal Cert.KernelIdeal.Gen
open scoped BigOperators

variable [Cert.KernelIdeal.Facts]

/-- The bias row broadcast over the 2000 rows of a block of 128 columns, at (p, q), is the bias at column q. -/
theorem bias128_apply (b : Vec Ideal S1x128 .f32) (p : Fin 2000) (q : Fin 128) :
    broadcastTo S2000x128 (shapeCast S1x128 b shapeCasts_S1x128_S1x128) broadcasts_S1x128_S2000x128 (ix2 p q) = b (ix2 0 q) := by
  rw [shapeCast_self]
  refine broadcastTo_apply b _ (ix2 p q) (ix2 0 q) fun a => ?_
  match a with
  | ⟨0, _⟩ => rfl
  | ⟨1, _⟩ => rfl

/-- The same over a block of 64 columns. -/
theorem bias64_apply (b : Vec Ideal S1x64 .f32) (p : Fin 2000) (q : Fin 64) :
    broadcastTo S2000x64 (shapeCast S1x64 b shapeCasts_S1x64_S1x64) broadcasts_S1x64_S2000x64 (ix2 p q) = b (ix2 0 q) := by
  rw [shapeCast_self]
  refine broadcastTo_apply b _ (ix2 p q) (ix2 0 q) fun a => ?_
  match a with
  | ⟨0, _⟩ => rfl
  | ⟨1, _⟩ => rfl

/-- The first stage's stored value at row p, column q of a block: the positive part of the two contraction sums
    plus the bias. -/
theorem pay0_apply (a x : Vec Ideal S2000x128 .f32) (wl wr : Vec Ideal S128x128 .f32) (b : Vec Ideal S1x128 .f32)
    (p : Fin 2000) (q : Fin 128) :
    k0_pay1 (F := Ideal) a x wl wr b (ix2 p q)
      = max ((∑ k : Fin 128, a (ix2 p k) * wl (ix2 k q)) + (∑ k : Fin 128, x (ix2 p k) * wr (ix2 k q)) + b (ix2 0 q)) 0 := by
  unfold k0_pay1
  simp only [maximumf_apply, addf_apply, broadcast_apply, shapeCast_self a]
  -- each product into the zero accumulator is its contraction sum; the narrowing is the identity
  have hl : matmul (F := Ideal) dot_S2000x128_S128x128_S2000x128_1_0_0_1_n_n none (truncf .bf16 a bitsLt_bf16_f32)
      (truncf .bf16 wl bitsLt_bf16_f32) (constant S2000x128 .f32 0x00000000#32) (ix2 p q)
        = ∑ k : Fin 128, a (ix2 p k) * wl (ix2 k q) :=
    Cert.DotPlain.matmul_zero_rows_cols dot_S2000x128_S128x128_S2000x128_1_0_0_1_n_n rfl rfl rfl rfl rfl rfl none _ _ p q
  have hr : matmul (F := Ideal) dot_S2000x128_S128x128_S2000x128_1_0_0_1_n_n none (truncf .bf16 x bitsLt_bf16_f32)
      (truncf .bf16 wr bitsLt_bf16_f32) (constant S2000x128 .f32 0x00000000#32) (ix2 p q)
        = ∑ k : Fin 128, x (ix2 p k) * wr (ix2 k q) :=
    Cert.DotPlain.matmul_zero_rows_cols dot_S2000x128_S128x128_S2000x128_1_0_0_1_n_n rfl rfl rfl rfl rfl rfl none _ _ p q
  rw [bias128_apply b p q, hl, hr]
  exact congrArg (max _) Ideal.ofBits_zero_f32

/-- The second stage's stored value at row p, column q of a block: the two contraction sums plus the bias. -/
theorem pay1_apply (a x : Vec Ideal S2000x128 .f32) (wl wr : Vec Ideal S128x64 .f32) (b : Vec Ideal S1x64 .f32)
    (p : Fin 2000) (q : Fin 64) :
    k1_pay1 (F := Ideal) a x wl wr b (ix2 p q)
      = (∑ k : Fin 128, a (ix2 p k) * wl (ix2 k q)) + (∑ k : Fin 128, x (ix2 p k) * wr (ix2 k q)) + b (ix2 0 q) := by
  unfold k1_pay1
  simp only [addf_apply, shapeCast_self a, shapeCast_self x]
  have hl : matmul (F := Ideal) dot_S2000x128_S128x64_S2000x64_1_0_0_1_n_n none (truncf .bf16 a bitsLt_bf16_f32)
      (truncf .bf16 wl bitsLt_bf16_f32) (constant S2000x64 .f32 0x00000000#32) (ix2 p q)
        = ∑ k : Fin 128, a (ix2 p k) * wl (ix2 k q) :=
    Cert.DotPlain.matmul_zero_rows_cols dot_S2000x128_S128x64_S2000x64_1_0_0_1_n_n rfl rfl rfl rfl rfl rfl none _ _ p q
  have hr : matmul (F := Ideal) dot_S2000x128_S128x64_S2000x64_1_0_0_1_n_n none (truncf .bf16 x bitsLt_bf16_f32)
      (truncf .bf16 wr bitsLt_bf16_f32) (constant S2000x64 .f32 0x00000000#32) (ix2 p q)
        = ∑ k : Fin 128, x (ix2 p k) * wr (ix2 k q) :=
    Cert.DotPlain.matmul_zero_rows_cols dot_S2000x128_S128x64_S2000x64_1_0_0_1_n_n rfl rfl rfl rfl rfl rfl none _ _ p q
  rw [bias64_apply b p q, hl, hr]

end Cert.KernelIdeal.Stage

end
-- ==== Proof.StageSpec.lean ====
/- The linear stage of the two-stage neighbourhood-mean network as one function of whole arrays, and the laws that
   join the two arrangements of it.

   A stage takes the mean-aggregated neighbour features `agg` and the node's own features `x` (one row per node),
   two weight matrices and a bias, and gives, at node i and output column j,
       Σ_k agg(i,k) · wl(k,j)  +  Σ_k x(i,k) · wr(k,j)  +  b(j),
   the first stage taking the positive part of it. One arrangement adds the bias last, the other between the two
   products: addition on the extended reals is commutative and associative, so they agree everywhere. The mean is
   the neighbour sum times the reciprocal of the neighbour count in one arrangement and the quotient by the count in
   the other: the count is at least one, hence not zero, and a quotient by a non-zero extended real is the product with
   its inverse, so they agree whatever the sum is. -/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- An n × d array of extended reals. -/
abbrev Mat (n d : Nat) : Type := (⟨2, ![n, d]⟩ : Shape).Idx → EReal

/-- A length-n array of extended reals. -/
abbrev Row (n : Nat) : Type := (⟨1, ![n]⟩ : Shape).Idx → EReal

/-- One linear stage at row p and column q: the aggregated row against column q of `wl`, the node's own row against
    column q of `wr`, and the bias at q. -/
def linAt {N D O : Nat} (agg x : Mat N D) (wl : Mat D O) (b : Row O) (wr : Mat D O) (p : Fin N) (q : Fin O) : EReal :=
  (∑ k : Fin D, agg (ix2 p k) * wl (ix2 k q)) + (∑ k : Fin D, x (ix2 p k) * wr (ix2 k q)) + b (ix1 q)

/-- The stage as an array. -/
def lin {N D O : Nat} (agg x : Mat N D) (wl : Mat D O) (b : Row O) (wr : Mat D O) : Mat N O :=
  fun i => linAt agg x wl b wr (i 0) (i 1)

/-- The stage followed by the positive part. -/
def linPos {N D O : Nat} (agg x : Mat N D) (wl : Mat D O) (b : Row O) (wr : Mat D O) : Mat N O :=
  fun i => max (linAt agg x wl b wr (i 0) (i 1)) 0

theorem lin_ix2 {N D O : Nat} (agg x : Mat N D) (wl : Mat D O) (b : Row O) (wr : Mat D O) (p : Fin N) (q : Fin O) :
    lin agg x wl b wr (ix2 p q) = linAt agg x wl b wr p q := rfl

theorem linPos_ix2 {N D O : Nat} (agg x : Mat N D) (wl : Mat D O) (b : Row O) (wr : Mat D O) (p : Fin N) (q : Fin O) :
    linPos agg x wl b wr (ix2 p q) = max (linAt agg x wl b wr p q) 0 := rfl

/-- The bias added between the two products instead of after them. -/
theorem linAt_bias_between {N D O : Nat} (agg x : Mat N D) (wl : Mat D O) (b : Row O) (wr : Mat D O) (p : Fin N) (q : Fin O) :
    (∑ k : Fin D, agg (ix2 p k) * wl (ix2 k q)) + b (ix1 q) + (∑ k : Fin D, x (ix2 p k) * wr (ix2 k q))
      = linAt agg x wl b wr p q :=
  add_right_comm _ _ _

/-- A count raised to at least one is not zero. -/
theorem max_one_ne_zero (a : EReal) : max a 1 ≠ 0 :=
  ne_of_gt (lt_of_lt_of_le zero_lt_one (le_max_right a 1))

/-- The product with the reciprocal of a non-zero extended real is the quotient by it. -/
theorem mul_recip_eq_div (s c : EReal) (hc : c ≠ 0) : s * Ideal.div 1 c = Ideal.div s c := by
  unfold Ideal.div
  rw [if_neg hc, if_neg hc, one_mul]

end Cert.Sage

end
-- ==== Proof.StageArrays.lean ====
/- From the blocks each grid point writes back to the whole result array, for each of the two calls.

   A call runs its body at 50 grid points; point t reads rows 2000·t … 2000·t + 1999 of the aggregated features and of
   the node features, the two weight matrices and the bias row whole, and writes back the same rows of the result.
   Entry (p, q) of the block written back is the stage's value at row 2000·t + p and column q of the arrays the call
   reads, and the 50 blocks tile the 100000 rows, so the result array is the stage's whole-array function of those
   arrays, whatever they hold when the call is entered. -/
import proofs.«166846_j42391327211901_1_alg».proof.Proof.Gen.KernelIdeal.Frame
import proofs.«166846_j42391327211901_1_alg».proof.Proof.StagePayload
import proofs.«166846_j42391327211901_1_alg».proof.Proof.StageSpec
import Idealize.ShloMosaic.Lib.Pipeline.Value
import Idealize.ShloMosaic.Lib.ValueIdx

set_option maxRecDepth 16384

noncomputable section

namespace Cert.KernelIdeal.Stage

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage
open scoped BigOperators

variable [Cert.KernelIdeal.Facts]

theorem hz : (![0, 0] : Fin 2 → Nat) = fun _ => 0 := funext fun a => by fin_cases a <;> rfl

/-! ## Stage one: the 100000 × 128 result array of the first call -/

section FirstCall

variable (V : (c : Dev nD) → (b : Ref sig .tc) → Buf (Elt Ideal) ((c : Thread nD τ).loc b))

/-- The arrays the first call's windows read, as the call finds them, at their literal types. -/
abbrev agg0 (c : Dev nD) : Mat 100000 128 := V c main_v24
abbrev feat0 (c : Dev nD) : Mat 100000 128 := V c main_arg0
abbrev wl0 (c : Dev nD) : Mat 128 128 := V c main_arg2
abbrev wr0 (c : Dev nD) : Mat 128 128 := V c main_arg4
abbrev brow0 (c : Dev nD) : Mat 1 128 := V c main_v25
/-- The bias as a row vector: the one row of the 1 × 128 array the call is handed. -/
abbrev bias0 (c : Dev nD) : Row 128 := fun j => brow0 V c (ix2 0 (j 0))

/-- The array index of entry y of the block grid point t writes back. -/
abbrev outIdx0 (t : Fin cfg0.N) (y : S2000x128.Idx) : S100000x128.Idx := ((cfg0.win 5).blk t).view.emb y

/-- The printed index maps over the 50 grid points: the two row-blocked inputs move with the output's row block and
    stay at column block 0; the weights and the bias stay at block (0, 0); the output's row block is at most 49. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49 :=
  (by decide +kernel : ∀ t : Fin grid0.N, _)

/-- Every row block of the output is some grid point's. -/
theorem idx_onto0 : ∀ q0 : Fin 50, ∃ t : Fin cfg0.N, win0_5.index t = ![q0.val, 0] :=
  (by decide +kernel : ∀ q0 : Fin 50, ∃ t : Fin grid0.N, win0_5.index t = ![q0.val, 0])

/-- What grid point t writes back is block t of the stage's whole-array function of the arrays the call reads:
    row p of the block is row (block index · 2000 + p) of the array, the weights and the bias are read whole. -/
theorem flushed0_eq (c : Dev nD) (t : Fin cfg0.N) :
    (dat0 V c).flushed 5 t = ((cfg0.win 5).blk t).view.read (Elt Ideal)
      (linPos (agg0 V c) (feat0 V c) (wl0 V c) (bias0 V c) (wr0 V c)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e51, -⟩ := idx_facts0 t
  refine funext fun (j : S2000x128.Idx) => ?_
  obtain ⟨p, q, rfl⟩ : ∃ (p : Fin 2000) (q : Fin 128), j = ix2 p q := ⟨j 0, j 1, eq_ix2 j⟩
  -- the array index of entry (p, q) of the output block
  have hi0 : (outIdx0 t (ix2 p q) 0).val = win0_5.index t (0 : Fin 2) * 2000 + 1 * p.val := rfl
  have hi1 : (outIdx0 t (ix2 p q) 1).val = win0_5.index t (1 : Fin 2) * 128 + 1 * q.val := rfl
  -- each input block read where the output's rectangle says
  have ha : ∀ k : Fin 128, iblk0 V c 0 t (ix2 p k) = agg0 V c (ix2 (outIdx0 t (ix2 p q) 0) k) := fun k => by
    show V c main_v24 (((cfg0.win 0).blk t).view.emb (ix2 p k)) = V c main_v24 _
    refine congrArg _ (funext fun a => Fin.ext ?_)
    match a with
    | ⟨0, _⟩ => show win0_0.index t (0 : Fin 2) * 2000 + 1 * p.val = _; rw [hi0]; omega
    | ⟨1, _⟩ => show win0_0.index t (1 : Fin 2) * 128 + 1 * k.val = k.val; omega
  have hx : ∀ k : Fin 128, iblk0 V c 1 t (ix2 p k) = feat0 V c (ix2 (outIdx0 t (ix2 p q) 0) k) := fun k => by
    show V c main_arg0 (((cfg0.win 1).blk t).view.emb (ix2 p k)) = V c main_arg0 _
    refine congrArg _ (funext fun a => Fin.ext ?_)
    match a with
    | ⟨0, _⟩ => show win0_1.index t (0 : Fin 2) * 2000 + 1 * p.val = _; rw [hi0]; omega
    | ⟨1, _⟩ => show win0_1.index t (1 : Fin 2) * 128 + 1 * k.val = k.val; omega
  have hwl : ∀ k : Fin 128, iblk0 V c 2 t (ix2 k q) = wl0 V c (ix2 k (outIdx0 t (ix2 p q) 1)) := fun k => by
    show V c main_arg2 (((cfg0.win 2).blk t).view.emb (ix2 k q)) = V c main_arg2 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = _; rw [hi1]; omega
  have hwr : ∀ k : Fin 128, iblk0 V c 4 t (ix2 k q) = wr0 V c (ix2 k (outIdx0 t (ix2 p q) 1)) := fun k => by
    show V c main_arg4 (((cfg0.win 4).blk t).view.emb (ix2 k q)) = V c main_arg4 _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = _; rw [hi1]; omega
  have hb : iblk0 V c 3 t (ix2 0 q) = brow0 V c (ix2 0 (outIdx0 t (ix2 p q) 1)) := by
    show V c main_v25 (((cfg0.win 3).blk t).view.emb (ix2 0 q)) = V c main_v25 _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = _; rw [hi1]; omega
  show k0_pay1 (F := Ideal) (iblk0 V c 0 t) (iblk0 V c 1 t) (iblk0 V c 2 t) (iblk0 V c 4 t) (iblk0 V c 3 t) (ix2 p q) = _
  refine (pay0_apply (iblk0 V c 0 t) (iblk0 V c 1 t) (iblk0 V c 2 t) (iblk0 V c 4 t) (iblk0 V c 3 t) p q).trans ?_
  show _ = max (linAt (agg0 V c) (feat0 V c) (wl0 V c) (bias0 V c) (wr0 V c) (outIdx0 t (ix2 p q) 0) (outIdx0 t (ix2 p q) 1)) 0
  unfold linAt
  refine congrArg (fun z => max z 0) ?_
  refine congrArg₂ (· + ·) (congrArg₂ (· + ·) (Finset.sum_congr rfl fun k _ => ?_) (Finset.sum_congr rfl fun k _ => ?_)) hb
  · exact congrArg₂ (· * ·) (ha k) (hwl k)
  · exact congrArg₂ (· * ·) (hx k) (hwr k)

/-- An index of the result array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- The fifty blocks of 2000 rows tile the 100000 rows: row r is in the block of point r / 2000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the call: the stage's function of the arrays the call reads, whatever they hold. -/
theorem final0 (c : Dev nD) :
    (dat0 V c).arrAt 5 cfg0.N = linPos (agg0 V c) (feat0 V c) (wl0 V c) (bias0 V c) (wr0 V c) :=
  (dat0 V c).arrAt_eq_of_cover 5 _ (fun t _ => flushed0_eq V c t) cover0

end FirstCall

/-! ## Stage two: the 100000 × 64 result array of the second call

The same argument with 64 output columns and no positive part: the second call reads the aggregate of the first
call's result and that result itself, in blocks of 2000 rows, and the second pair of weights and the second bias whole. -/

section SecondCall

variable (V : (c : Dev nD) → (b : Ref sig .tc) → Buf (Elt Ideal) ((c : Thread nD τ).loc b))

/-- The arrays the second call's windows read, as the call finds them, at their literal types. -/
abbrev agg1 (c : Dev nD) : Mat 100000 128 := V c main_v39
abbrev feat1 (c : Dev nD) : Mat 100000 128 := V c main_v26
abbrev wl1 (c : Dev nD) : Mat 128 64 := V c main_arg5
abbrev wr1 (c : Dev nD) : Mat 128 64 := V c main_arg7
abbrev brow1 (c : Dev nD) : Mat 1 64 := V c main_v40
/-- The bias as a row vector: the one row of the 1 × 64 array the call is handed. -/
abbrev bias1 (c : Dev nD) : Row 64 := fun j => brow1 V c (ix2 0 (j 0))

/-- The array index of entry y of the block grid point t writes back. -/
abbrev outIdx1 (t : Fin cfg1.N) (y : S2000x64.Idx) : S100000x64.Idx := ((cfg1.win 5).blk t).view.emb y

/-- The printed index maps over the 50 grid points, as for the first call. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 49 :=
  (by decide +kernel : ∀ t : Fin grid1.N, _)

/-- Every row block of the output is some grid point's. -/
theorem idx_onto1 : ∀ q0 : Fin 50, ∃ t : Fin cfg1.N, win1_5.index t = ![q0.val, 0] :=
  (by decide +kernel : ∀ q0 : Fin 50, ∃ t : Fin grid1.N, win1_5.index t = ![q0.val, 0])

/-- What grid point t writes back is block t of the second stage's whole-array function of the arrays the call reads. -/
theorem flushed1_eq (c : Dev nD) (t : Fin cfg1.N) :
    (dat1 V c).flushed 5 t = ((cfg1.win 5).blk t).view.read (Elt Ideal)
      (lin (agg1 V c) (feat1 V c) (wl1 V c) (bias1 V c) (wr1 V c)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  obtain ⟨e00, e01, e10, e11, e20, e21, e30, e31, e40, e41, e51, -⟩ := idx_facts1 t
  refine funext fun (j : S2000x64.Idx) => ?_
  obtain ⟨p, q, rfl⟩ : ∃ (p : Fin 2000) (q : Fin 64), j = ix2 p q := ⟨j 0, j 1, eq_ix2 j⟩
  -- the array index of entry (p, q) of the output block
  have hi0 : (outIdx1 t (ix2 p q) 0).val = win1_5.index t (0 : Fin 2) * 2000 + 1 * p.val := rfl
  have hi1 : (outIdx1 t (ix2 p q) 1).val = win1_5.index t (1 : Fin 2) * 64 + 1 * q.val := rfl
  -- each input block read where the output's rectangle says
  have ha : ∀ k : Fin 128, iblk1 V c 0 t (ix2 p k) = agg1 V c (ix2 (outIdx1 t (ix2 p q) 0) k) := fun k => by
    show V c main_v39 (((cfg1.win 0).blk t).view.emb (ix2 p k)) = V c main_v39 _
    refine congrArg _ (funext fun a => Fin.ext ?_)
    match a with
    | ⟨0, _⟩ => show win1_0.index t (0 : Fin 2) * 2000 + 1 * p.val = _; rw [hi0]; omega
    | ⟨1, _⟩ => show win1_0.index t (1 : Fin 2) * 128 + 1 * k.val = k.val; omega
  have hx : ∀ k : Fin 128, iblk1 V c 1 t (ix2 p k) = feat1 V c (ix2 (outIdx1 t (ix2 p q) 0) k) := fun k => by
    show V c main_v26 (((cfg1.win 1).blk t).view.emb (ix2 p k)) = V c main_v26 _
    refine congrArg _ (funext fun a => Fin.ext ?_)
    match a with
    | ⟨0, _⟩ => show win1_1.index t (0 : Fin 2) * 2000 + 1 * p.val = _; rw [hi0]; omega
    | ⟨1, _⟩ => show win1_1.index t (1 : Fin 2) * 128 + 1 * k.val = k.val; omega
  have hwl : ∀ k : Fin 128, iblk1 V c 2 t (ix2 k q) = wl1 V c (ix2 k (outIdx1 t (ix2 p q) 1)) := fun k => by
    show V c main_arg5 (((cfg1.win 2).blk t).view.emb (ix2 k q)) = V c main_arg5 _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = _; rw [hi1]; omega
  have hwr : ∀ k : Fin 128, iblk1 V c 4 t (ix2 k q) = wr1 V c (ix2 k (outIdx1 t (ix2 p q) 1)) := fun k => by
    show V c main_arg7 (((cfg1.win 4).blk t).view.emb (ix2 k q)) = V c main_arg7 _
    refine congrArg _ (funext fun a => Fin.ext ?_)
    match a with
    | ⟨0, _⟩ => show win1_4.index t (0 : Fin 2) * 128 + 1 * k.val = k.val; omega
    | ⟨1, _⟩ => show win1_4.index t (1 : Fin 2) * 64 + 1 * q.val = _; rw [hi1]; omega
  have hb : iblk1 V c 3 t (ix2 0 q) = brow1 V c (ix2 0 (outIdx1 t (ix2 p q) 1)) := by
    show V c main_v40 (((cfg1.win 3).blk t).view.emb (ix2 0 q)) = V c main_v40 _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = _; rw [hi1]; omega
  show k1_pay1 (F := Ideal) (iblk1 V c 0 t) (iblk1 V c 1 t) (iblk1 V c 2 t) (iblk1 V c 4 t) (iblk1 V c 3 t) (ix2 p q) = _
  refine (pay1_apply (iblk1 V c 0 t) (iblk1 V c 1 t) (iblk1 V c 2 t) (iblk1 V c 4 t) (iblk1 V c 3 t) p q).trans ?_
  show _ = linAt (agg1 V c) (feat1 V c) (wl1 V c) (bias1 V c) (wr1 V c) (outIdx1 t (ix2 p q) 0) (outIdx1 t (ix2 p q) 1)
  unfold linAt
  refine congrArg₂ (· + ·) (congrArg₂ (· + ·) (Finset.sum_congr rfl fun k _ => ?_) (Finset.sum_congr rfl fun k _ => ?_)) hb
  · exact congrArg₂ (· * ·) (ha k) (hwl k)
  · exact congrArg₂ (· * ·) (hx k) (hwr k)

/-- An index of the result array is in point t's block iff each coordinate is in the block's range on its axis. -/
theorem mem_blk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v41).slice (win1_5.rect t)).set ↔ _
  rw [View.set_slice_whole, Rect.mem_set_unit]
  exact Iff.rfl

/-- The fifty blocks of 2000 rows tile the 100000 rows. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The result array after the call: the second stage's function of the arrays the call reads, whatever they hold. -/
theorem final1 (c : Dev nD) :
    (dat1 V c).arrAt 5 cfg1.N = lin (agg1 V c) (feat1 V c) (wl1 V c) (bias1 V c) (wr1 V c) :=
  (dat1 V c).arrAt_eq_of_cover 5 _ (fun t _ => flushed1_eq V c t) cover1

end SecondCall

end Cert.KernelIdeal.Stage

end
-- ==== Proof.KernelValue.lean ====
/- The idealized kernel program's result as one function of its arguments.

   The first call leaves in its result array the first stage of the mean-aggregated node features and the node
   features; the host aggregates that array over the same edges; the second call leaves the second stage of the
   aggregate and of the first call's result. Each call's array is the stage's whole-array function of what the call
   finds, and what it finds is what the host operations before it computed from the arguments and from the first
   call's result. -/
import proofs.«166846_j42391327211901_1_alg».proof.Proof.KernelHost
import proofs.«166846_j42391327211901_1_alg».proof.Proof.StageArrays
import proofs.«166846_j42391327211901_1_alg».proof.Proof.KernelIdealLaunch

set_option maxRecDepth 16384

noncomputable section

namespace Cert.KernelIdeal.Stage

open Idealize.ShloMosaic Idealize.ShloMosaic.TcCoe Idealize.ShloMosaic.ValueIdx Idealize.SL.Sem
open Cert.KernelIdeal Cert.KernelIdeal.Gen Cert.Sage

variable [Cert.KernelIdeal.Facts]

/-- A vector of 128 reshaped to one row, read back along that row, is the vector. -/
theorem row128_of_reshape (b : FVec Ideal S128 .f32) :
    (fun j : S128.Idx => shapeCast S1x128 b shapeCasts_S128_S1x128 (ix2 0 (j 0))) = b := by
  funext j
  refine (shapeCast_apply b shapeCasts_S128_S1x128 (ix2 0 (j 0)) j ?_).trans rfl
  rw [Shape.rowMajor_val_one, Shape.rowMajor_val_two]
  show (j 0).val = 0 * 128 + (j 0).val
  omega

/-- The same for a vector of 64. -/
theorem row64_of_reshape (b : FVec Ideal S64 .f32) :
    (fun j : S64.Idx => shapeCast S1x64 b shapeCasts_S64_S1x64 (ix2 0 (j 0))) = b := by
  funext j
  refine (shapeCast_apply b shapeCasts_S64_S1x64 (ix2 0 (j 0)) j ?_).trans rfl
  rw [Shape.rowMajor_val_one, Shape.rowMajor_val_two]
  show (j 0).val = 0 * 64 + (j 0).val
  omega

/-- The whole network on the kernel's arrangement of the mean: the second stage of the aggregated first stage. -/
def network (x : FVec Ideal S100000x128 .f32) (e : IVec S2x1600000 32) (w1l : FVec Ideal S128x128 .f32)
    (b1 : FVec Ideal S128 .f32) (w1r : FVec Ideal S128x128 .f32) (w2l : FVec Ideal S128x64 .f32)
    (b2 : FVec Ideal S64 .f32) (w2r : FVec Ideal S128x64 .f32) : FVec Ideal S100000x64 .f32 :=
  lin (meanK (linPos (meanK x e) x w1l b1 w1r) e) (linPos (meanK x e) x w1l b1 w1r) w2l b2 w2r

variable (m : (ℓ : Loc nD τ sig) → Buf (Elt Ideal) ℓ) (ρ : Dev nD → PrngReg)

/-- The first call's result array: the first stage of the arguments. -/
theorem first_result (c : Dev nD) :
    (dat0 (V1 m ρ) c).arrAt 5 cfg0.N = (linPos (meanK (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))) := by
  have h1 : agg0 (V1 m ρ) c = meanK (m ((c : Thread nD τ).loc main_arg0)) (m ((c : Thread nD τ).loc main_arg1)) := V1_agg m ρ c
  have h2 : feat0 (V1 m ρ) c = (m ((c : Thread nD τ).loc main_arg0)) := V1_feat m ρ c
  have h3 : wl0 (V1 m ρ) c = (m ((c : Thread nD τ).loc main_arg2)) := V1_wl m ρ c
  have h4 : wr0 (V1 m ρ) c = (m ((c : Thread nD τ).loc main_arg4)) := V1_wr m ρ c
  have h5 : bias0 (V1 m ρ) c = (m ((c : Thread nD τ).loc main_arg3)) := by
    show (fun j : S128.Idx => (V1 m ρ c main_v25 : FVec Ideal S1x128 .f32) (ix2 0 (j 0))) = _
    rw [V1_bias]
    exact row128_of_reshape _
  rw [final0 (V1 m ρ) c, h1, h2, h3, h4, h5]

/-- The second call's result array, which is the program's result: the network of the arguments. -/
theorem result (c : Dev nD) :
    W4 m ρ c (Proc.devRef .tc main_v41)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h1 : agg1 (V3 m ρ) c = meanK (linPos (meanK (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg1)) :=
    (V3_agg m ρ c).trans (by rw [first_result])
  have h2 : feat1 (V3 m ρ) c = (linPos (meanK (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))) := (V3_feat m ρ c).trans (first_result m ρ c)
  have h3 : wl1 (V3 m ρ) c = (m ((c : Thread nD τ).loc main_arg5)) := V3_wl m ρ c
  have h4 : wr1 (V3 m ρ) c = (m ((c : Thread nD τ).loc main_arg7)) := V3_wr m ρ c
  have h5 : bias1 (V3 m ρ) c = (m ((c : Thread nD τ).loc main_arg6)) := by
    show (fun j : S64.Idx => (V3 m ρ c main_v40 : FVec Ideal S1x64 .f32) (ix2 0 (j 0))) = _
    rw [V3_bias]
    exact row64_of_reshape _
  refine (W4_arr m ρ c 5).trans ?_
  rw [final1 (V3 m ρ) c, h1, h2, h3, h4, h5]
  rfl

/-- The run of the idealized kernel program, read: every weakly fair execution terminates, nothing faulting, with the
    result array at the network of the arguments and the arguments unchanged. -/
theorem run : θ_run defs (onTc (τ := τ) (main (F := Ideal))) ⟨m, fun _ => 0, ρ⟩ (fun r => ∀ c : Dev nD,
      r.2.mem ((c.tc : Thread nD τ).loc main_v41)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩)
    (Cert.KernelIdeal.GenRun.run_named (F := Ideal) m ρ)

end Cert.KernelIdeal.Stage

end
-- ==== Proof.RefStages.lean ====
/- The reference's two stages, each read as the stage's whole-array function.

   The reference computes a stage as  (agg · Wl + b) + x · Wr  with the two products over whole arrays; its first stage
   then takes the positive part. Read at one index each product is the contraction sum over the 128 feature columns
   and the broadcast bias is the bias at the column, so the stage is the same function of its operands as the kernel's
   blocks compute, with the bias added between the two sums instead of after them. -/
import proofs.«166846_j42391327211901_1_alg».proof.Proof.Gen.ReferenceIdeal.Read
import proofs.«166846_j42391327211901_1_alg».proof.Proof.StageSpec
import Idealize.ShloMosaic.Lib.ValueIdx
import Idealize.ShloMosaic.PureOps.Ideal.Laws

noncomputable section

namespace Cert.ReferenceIdeal.Stages

open Idealize.ShloMosaic Idealize.ShloMosaic.ValueIdx
open Cert.ReferenceIdeal Cert.ReferenceIdeal.Read Cert.Sage
open scoped BigOperators

variable [Cert.ReferenceIdeal.Facts]

/-- The reference's first stage: the positive part of the linear stage of its mean-aggregated features. -/
theorem stage_one (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = linPos (val_main_v22 (F := Ideal) x0 x1) x0 x2 x3 x4 := by
  funext i
  obtain ⟨p, q, rfl⟩ : ∃ (p : Fin 100000) (q : Fin 128), i = ix2 p q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  -- the operands' indices at row p, column q and contraction index k
  have el : ∀ k : Fin 128, lidx_main_v23 (ix2 p q) k = ix2 p k := fun k => funext fun a => by
    match a with
    | ⟨0, _⟩ => rfl
    | ⟨1, _⟩ => rfl
  have er : ∀ k : Fin 128, ridx_main_v23 (ix2 p q) k = ix2 k q := fun k => funext fun a => by
    match a with
    | ⟨0, _⟩ => rfl
    | ⟨1, _⟩ => rfl
  have el' : ∀ k : Fin 128, lidx_main_v27 (ix2 p q) k = ix2 p k := fun k => funext fun a => by
    match a with
    | ⟨0, _⟩ => rfl
    | ⟨1, _⟩ => rfl
  have er' : ∀ k : Fin 128, ridx_main_v27 (ix2 p q) k = ix2 k q := fun k => funext fun a => by
    match a with
    | ⟨0, _⟩ => rfl
    | ⟨1, _⟩ => rfl
  have eb : idx_main_v24 (idx_main_v25 (ix2 p q)) = ix1 q := funext fun a => by
    match a with
    | ⟨0, _⟩ => rfl
  simp only [el, er, el', er', eb]
  rw [linPos_ix2, ← linAt_bias_between]
  exact congrArg (max _) Ideal.ofBits_zero_f32

/-- The reference's second stage: the linear stage of the mean-aggregated first-stage result. -/
theorem stage_two (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v58 (F := Ideal) x0 x1 x2 x3 x4 x5 x6 x7
      = lin (val_main_v52 (F := Ideal) x0 x1 x2 x3 x4) (val_main_v29 (F := Ideal) x0 x1 x2 x3 x4) x5 x6 x7 := by
  funext i
  obtain ⟨p, q, rfl⟩ : ∃ (p : Fin 100000) (q : Fin 64), i = ix2 p q := ⟨i 0, i 1, eq_ix2 i⟩
  rw [val_main_v58_apply, val_main_v56_apply, val_main_v53_apply, val_main_v57_apply, val_main_v55_apply,
    val_main_v54_apply]
  have el : ∀ k : Fin 128, lidx_main_v53 (ix2 p q) k = ix2 p k := fun k => funext fun a => by
    match a with
    | ⟨0, _⟩ => rfl
    | ⟨1, _⟩ => rfl
  have er : ∀ k : Fin 128, ridx_main_v53 (ix2 p q) k = ix2 k q := fun k => funext fun a => by
    match a with
    | ⟨0, _⟩ => rfl
    | ⟨1, _⟩ => rfl
  have el' : ∀ k : Fin 128, lidx_main_v57 (ix2 p q) k = ix2 p k := fun k => funext fun a => by
    match a with
    | ⟨0, _⟩ => rfl
    | ⟨1, _⟩ => rfl
  have er' : ∀ k : Fin 128, ridx_main_v57 (ix2 p q) k = ix2 k q := fun k => funext fun a => by
    match a with
    | ⟨0, _⟩ => rfl
    | ⟨1, _⟩ => rfl
  have eb : idx_main_v54 (idx_main_v55 (ix2 p q)) = ix1 q := funext fun a => by
    match a with
    | ⟨0, _⟩ => rfl
  simp only [el, er, el', er', eb]
  rw [lin_ix2, ← linAt_bias_between]
  rfl

end Cert.ReferenceIdeal.Stages

end
-- ==== Proof.Bridge.lean ====
/- The kernel's network and the reference's result are one function of the arguments.

   The two programs gather and scatter-add with the same operations on the same index arrays, so the neighbour sums and
   the neighbour counts are the same arrays on both sides. The kernel multiplies a row of the sum by the reciprocal of
   its count raised to at least one; the reference divides the row by that count. The count is at least one, hence not
   zero, and then the product with the reciprocal and the quotient are the same extended real whatever the sum is. With
   the means equal, each stage is the same function of its operands on both sides. -/
import proofs.«166846_j42391327211901_1_alg».proof.Proof.KernelValue
import proofs.«166846_j42391327211901_1_alg».proof.Proof.RefStages
import proofs.«166846_j42391327211901_1_alg».proof.Proof.Gen.ReferenceIdeal.Read
import Idealize.ShloMosaic.Lib.IdealHost
import Idealize.ShloMosaic.Lib.Pipeline.Value

noncomputable section

namespace Cert.Bridge

open Idealize.ShloMosaic Idealize.ShloMosaic.ValueIdx
open Cert.ReferenceIdeal Cert.ReferenceIdeal.Gen Cert.ReferenceIdeal.Read Cert.Sage

variable [Cert.KernelIdeal.Facts] [Cert.ReferenceIdeal.Facts]

/-- A vector over the nodes broadcast down the 128 columns, read at (i, j), is the vector at node i. -/
theorem colBcast_apply {α : Type} (h1 : S100000.BroadcastsInDim S100000x1 ![0])
    (h2 : S100000x1.BroadcastsInDim S100000x128 ![0, 1]) (v : S100000.Idx → α) (i : S100000x128.Idx) :
    broadcastInDim S100000x128 ![0, 1] h2 (broadcastInDim S100000x1 ![0] h1 v) i = v (ix1 (i 0)) := by
  rw [broadcastInDim_apply _ h2 _ i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ h1 v (ix2 (i 0) 0) (ix1 (i 0)) (fun a => match a with
    | ⟨0, _⟩ => by show (i 0).val = if (100000 : Nat) = 1 then 0 else (i 0).val; rw [if_neg (by decide)])

/-- The scalar one splat over the nodes is one at every node. -/
theorem splat_one_apply (h : S_.BroadcastsInDim S100000 ![]) (j : S100000.Idx) :
    broadcastInDim S100000 ![] h (constant (F := Ideal) S_ .f32 0x3F800000#32) j = 1 :=
  (broadcastInDim_apply _ h _ j ix0 (fun a => a.elim0)).trans Ideal.ofBits_one_f32

/-- The mean as the kernel's program takes it, at (i, j): the neighbour sum there divided by node i's count raised to
    at least one — the sum and the count being the reference's own arrays. -/
theorem meanK_apply (feat : (⟨S100000x128, .f32⟩ : BufTy).Contents (Elt Ideal)) (e : (⟨S2x1600000, .i32⟩ : BufTy).Contents (Elt Ideal))
    (S : (⟨S100000x128, .f32⟩ : BufTy).Contents (Elt Ideal)) (cnt : (⟨S100000, .f32⟩ : BufTy).Contents (Elt Ideal))
    (hS : Cert.KernelIdeal.Stage.meanWith feat (Cert.KernelIdeal.Stage.srcRow e) (Cert.KernelIdeal.Stage.dstRow e) (Cert.KernelIdeal.Stage.cntInv e)
      = mulf S (broadcastInDim S100000x128 ![0, 1] bcast_S100000x1_S100000x128_0_1
          (broadcastInDim S100000x1 ![0] bcast_S100000_S100000x1_0
            (Host.divf (broadcastInDim S100000 ![] bcast_S_S100000 (constant S_ .f32 0x3F800000#32))
              (maximumf cnt (broadcastInDim S100000 ![] bcast_S_S100000 (constant S_ .f32 0x3F800000#32)))))))
    (i : S100000x128.Idx) :
    Cert.KernelIdeal.Stage.meanK feat e i = Ideal.div (S i) (max (cnt (ix1 (i 0))) 1) := by
  unfold Cert.KernelIdeal.Stage.meanK
  rw [hS]
  show S i * _ = _
  rw [colBcast_apply]
  show S i * Ideal.div (broadcastInDim S100000 ![] bcast_S_S100000 (constant (F := Ideal) S_ .f32 0x3F800000#32) (ix1 (i 0)))
      (max (cnt (ix1 (i 0))) (broadcastInDim S100000 ![] bcast_S_S100000 (constant (F := Ideal) S_ .f32 0x3F800000#32) (ix1 (i 0)))) = _
  rw [splat_one_apply]
  exact mul_recip_eq_div _ _ (max_one_ne_zero _)

/-- The reference's first mean at (i, j): its neighbour sum divided by node i's count raised to at least one. -/
theorem mean_one_apply (x0 : (⟨S100000x128, .f32⟩ : BufTy).Contents (Elt Ideal)) (x1 : (⟨S2x1600000, .i32⟩ : BufTy).Contents (Elt Ideal)) (i : S100000x128.Idx) :
    val_main_v22 (F := Ideal) x0 x1 i = Ideal.div (val_main_v13 (F := Ideal) x0 x1 i) (max (val_main_v17 (F := Ideal) x1 (ix1 (i 0))) 1) := by
  rw [val_main_v22_apply, val_main_v21_apply, val_main_v20_apply, val_main_v19_apply, val_main_v18_apply, val_main_cst_3_apply]
  have e : idx_main_v20 (idx_main_v21 i) = ix1 (i 0) := funext fun a => by
    match a with
    | ⟨0, _⟩ => rfl
  rw [e]
  show Ideal.div _ (max _ (Ideal.ofBits .f32 0x3F800000#32)) = _
  rw [Ideal.ofBits_one_f32]
  rfl

/-- The reference's second mean at (i, j), the same way. -/
theorem mean_two_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (i : S100000x128.Idx) :
    val_main_v52 (F := Ideal) x0 x1 x2 x3 x4 i
      = Ideal.div (val_main_v43 (F := Ideal) x0 x1 x2 x3 x4 i) (max (val_main_v47 (F := Ideal) x1 (ix1 (i 0))) 1) := by
  rw [val_main_v52_apply, val_main_v51_apply, val_main_v50_apply, val_main_v49_apply, val_main_v48_apply, val_main_cst_9_apply]
  have e : idx_main_v50 (idx_main_v51 i) = ix1 (i 0) := funext fun a => by
    match a with
    | ⟨0, _⟩ => rfl
  rw [e]
  show Ideal.div _ (max _ (Ideal.ofBits .f32 0x3F800000#32)) = _
  rw [Ideal.ofBits_one_f32]
  rfl

/-- The first mean: the kernel's arrangement of it is the reference's. -/
theorem mean_one (x0 : (⟨S100000x128, .f32⟩ : BufTy).Contents (Elt Ideal)) (x1 : (⟨S2x1600000, .i32⟩ : BufTy).Contents (Elt Ideal)) :
    Cert.KernelIdeal.Stage.meanK x0 x1 = val_main_v22 (F := Ideal) x0 x1 := by
  funext i
  rw [mean_one_apply, meanK_apply x0 x1 (val_main_v13 (F := Ideal) x0 x1) (val_main_v17 (F := Ideal) x1) rfl i]

/-- The second mean, of the reference's first-stage result: the kernel's arrangement of it is the reference's. -/
theorem mean_two (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    Cert.KernelIdeal.Stage.meanK (val_main_v29 (F := Ideal) x0 x1 x2 x3 x4) x1 = val_main_v52 (F := Ideal) x0 x1 x2 x3 x4 := by
  funext i
  rw [mean_two_apply, meanK_apply (val_main_v29 (F := Ideal) x0 x1 x2 x3 x4) x1 (val_main_v43 (F := Ideal) x0 x1 x2 x3 x4)
    (val_main_v47 (F := Ideal) x1) rfl i]

/-- The kernel's network of the arguments is the reference's last stage of them. -/
theorem network_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x64, .f32⟩ : BufTy).Contents (Elt Ideal)) (x6 : (⟨S64, .f32⟩ : BufTy).Contents (Elt Ideal)) (x7 : (⟨S128x64, .f32⟩ : BufTy).Contents (Elt Ideal)) :
    Cert.KernelIdeal.Stage.network x0 x1 x2 x3 x4 x5 x6 x7 = val_main_v58 (F := Ideal) x0 x1 x2 x3 x4 x5 x6 x7 := by
  unfold Cert.KernelIdeal.Stage.network
  rw [Cert.ReferenceIdeal.Stages.stage_two x0 x1 x2 x3 x4 x5 x6 x7, mean_one x0 x1,
    ← Cert.ReferenceIdeal.Stages.stage_one x0 x1 x2 x3 x4, mean_two x0 x1 x2 x3 x4]

end Cert.Bridge

end
-- ==== Proof.lean ====
/- Two stages of neighbourhood-mean aggregation followed by a linear map, the kernel against its reference, on the
   extended reals.

   Both programs compute, per node, the mean of the features of the node's in-neighbours (a gather of source rows,
   a scatter-add into destination rows, a division by the in-degree raised to at least one), then
       h   = max (mean(x) · W1l + x · W1r + b1) 0,
       out = mean(h) · W2l + h · W2r + b2.
   The kernel does each linear stage in a call over 50 blocks of 2000 nodes, takes the mean as a product with the
   reciprocal count, and adds the bias last; the reference works on whole arrays, divides by the count, and adds the
   bias between the two products. The count is at least one, so the product with its reciprocal is the quotient by it
   whatever the neighbour sum is, and sums on the extended reals may be regrouped: no input needs to be finite for the
   two results to agree, so the precondition is never opened.

   Modules: StageSpec (the stage as a function of whole arrays; the two laws), StagePayload (a call's stored block at
   an index), StageArrays (from the blocks to each call's result array), KernelHost (what each call finds, from the
   host operations before it), KernelValue (the kernel program's result and its run), RefStages (the reference's
   stages as the same function), Bridge (the two arrangements of the mean, and the two results, are equal). -/
import proofs.«166846_j42391327211901_1_alg».proof.Defs
import proofs.«166846_j42391327211901_1_alg».proof.Proof.Gen.Kernel
import proofs.«166846_j42391327211901_1_alg».proof.Proof.Gen.Kernel.Frame
import proofs.«166846_j42391327211901_1_alg».proof.Proof.Gen.KernelIdeal
import proofs.«166846_j42391327211901_1_alg».proof.Proof.Gen.KernelIdeal.Frame
import proofs.«166846_j42391327211901_1_alg».proof.Proof.Gen.ReferenceIdeal
import proofs.«166846_j42391327211901_1_alg».proof.Proof.Gen.Pre_finite_inputs
import proofs.«166846_j42391327211901_1_alg».proof.Proof.Gen.ReferenceIdeal.Run
import proofs.«166846_j42391327211901_1_alg».proof.Proof.Gen.ReferenceIdeal.Read
import proofs.«166846_j42391327211901_1_alg».proof.Proof.KernelValue
import proofs.«166846_j42391327211901_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs run and end with the same result array: the
    kernel's network of the arguments, which is the reference's last stage of them. -/
theorem algebraic : Cert.algebraic_KernelIdeal_ReferenceIdeal := by
  intro m ρ m' ρ' _ hagree
  refine ⟨_, Cert.KernelIdeal.Stage.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v58_eq, a0, a1, a2, a3, a4, a5, a6, a7]
  exact (Cert.Bridge.network_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
